-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8192x4096 : Shape := ⟨2, ![8192, 4096]⟩
abbrev S8192 : Shape := ⟨1, ![8192]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16384x4096 .f32) (main_arg1 : FVec F S8192x4096 .f32) (main_arg2 : FVec F S8192 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S16384x4096 : Shape := ⟨2, ![16384, 4096]⟩
abbrev S8192x4096 : Shape := ⟨2, ![8192, 4096]⟩
abbrev S8192 : Shape := ⟨1, ![8192]⟩
abbrev S2048x4x4096 : Shape := ⟨3, ![2048, 4, 4096]⟩
abbrev S_ : Shape := ⟨0, ![]⟩
abbrev S2048x4096 : Shape := ⟨2, ![2048, 4096]⟩
abbrev S2048x4 : Shape := ⟨2, ![2048, 4]⟩
abbrev S2048 : Shape := ⟨1, ![2048]⟩
abbrev S1x2048 : Shape := ⟨2, ![1, 2048]⟩
abbrev S16384x1 : Shape := ⟨2, ![16384, 1]⟩
abbrev S256x4096 : Shape := ⟨2, ![256, 4096]⟩
abbrev S512x4096 : Shape := ⟨2, ![512, 4096]⟩
abbrev S1x512 : Shape := ⟨2, ![1, 512]⟩
abbrev S256x1 : Shape := ⟨2, ![256, 1]⟩
abbrev S256x512 : Shape := ⟨2, ![256, 512]⟩
abbrev S256 : Shape := ⟨1, ![256]⟩
abbrev S16384 : Shape := ⟨1, ![16384]⟩

abbrev nBuf : Space → Nat
  | .hbm => 18
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S8192, .f32⟩
  | .hbm, ⟨3, _⟩ => ⟨S2048x4x4096, .f32⟩
  | .hbm, ⟨4, _⟩ => ⟨S_, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S1x2048, .f32⟩
  | .hbm, ⟨16, _⟩ => ⟨S16384x1, .f32⟩
  | .hbm, ⟨17, _⟩ => ⟨S16384, .f32⟩
  | .local _ .vmem, ⟨0, _⟩ => ⟨S256x4096, .f32⟩
  | .local _ .vmem, ⟨1, _⟩ => ⟨S256x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192x4096_S2048x4x4096 : S8192x4096.ShapeCasts S2048x4x4096
  reducesTo_S2048x4x4096_S2048x4096_d1 : S2048x4x4096.ReducesTo [1] S2048x4096
  h_S_ : 0 < S_.numel
  bcast_S_S2048x4096 : S_.BroadcastsInDim S2048x4096 (![] : Fin 0 → Fin S2048x4096.rank)
  shapeCasts_S8192_S2048x4 : S8192.ShapeCasts S2048x4
  reducesTo_S2048x4_S2048_d1 : S2048x4.ReducesTo [1] S2048
  bcast_S_S2048 : S_.BroadcastsInDim S2048 (![] : Fin 0 → Fin S2048.rank)
  shapeCasts_S2048_S1x2048 : S2048.ShapeCasts S1x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  reduces_S256x512_S256 : S256x512.Reduces [1] S256
  shapeCasts_S256_S256x1 : S256.ShapeCasts S256x1
  shapeCasts_S16384x1_S16384 : S16384x1.ShapeCasts S16384
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S2048x4096.size a
  hwx0_1 : ∀ i : grid0.Coords, EltTy.bits .f32 = 32 ∨ (Rect.block (s := S2048x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S8192x4096 : Shape := ⟨2, ![8192, 4096]⟩
abbrev S8192 : Shape := ⟨1, ![8192]⟩
abbrev S16384x8192 : Shape := ⟨2, ![16384, 8192]⟩
abbrev S1x8192 : Shape := ⟨2, ![1, 8192]⟩
abbrev S16384x2048x4 : Shape := ⟨3, ![16384, 2048, 4]⟩
abbrev S_ : Shape := ⟨0, ![]⟩
abbrev S16384x2048 : Shape := ⟨2, ![16384, 2048]⟩
abbrev S16384 : Shape := ⟨1, ![16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S8192, .f32⟩
  | .hbm, ⟨3, _⟩ => ⟨S16384x8192, .f32⟩
  | .hbm, ⟨4, _⟩ => ⟨S1x8192, .f32⟩
  | .hbm, ⟨5, _⟩ => ⟨S16384x8192, .f32⟩
  | .hbm, ⟨6, _⟩ => ⟨S16384x8192, .f32⟩
  | .hbm, ⟨7, _⟩ => ⟨S16384x2048x4, .f32⟩
  | .hbm, ⟨8, _⟩ => ⟨S_, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  shapeCasts_S16384x8192_S16384x2048x4 : S16384x8192.ShapeCasts S16384x2048x4
  reducesTo_S16384x2048x4_S16384x2048_d2 : S16384x2048x4.ReducesTo [2] S16384x2048
  h_S_ : 0 < S_.numel
  bcast_S_S16384x2048 : S_.BroadcastsInDim S16384x2048 (![] : Fin 0 → Fin S16384x2048.rank)
  reducesTo_S16384x2048_S16384_d1 : S16384x2048.ReducesTo [1] S16384
  dot_S16384x4096_S8192x4096_S16384x8192_1_1_0_0_n_n_wf : DotDims.WF S16384x4096 S8192x4096 S16384x8192 [1] [1] [0] [0] [] []

variable [Facts₀]

def dot_S16384x4096_S8192x4096_S16384x8192_1_1_0_0_n_n : DotDims S16384x4096 S8192x4096 S16384x8192 where
  lhsContracting := [1]
  rhsContracting := [1]
  lhsNonContracting := [0]
  rhsNonContracting := [0]
  lhsBatch := []
  rhsBatch := []
  wf := dot_S16384x4096_S8192x4096_S16384x8192_1_1_0_0_n_n_wf

class Facts : Prop extends Facts₀ where

variable [Facts]
-- ==== Proof.Spec.lean ====
/-
  The function both programs compute, on the extended reals.

  Inputs: a matrix `X` (16384 × 4096), a matrix `W` (8192 × 4096) and a vector `Bv` (8192). The 8192 rows of
  `W` (and entries of `Bv`) fall into 2048 consecutive groups of four; row `4 n + k` is member `k` of group `n`.

  The reference forms the 16384 × 8192 product `X Wᵀ + Bv`, averages each group of four adjacent columns
  (`preR`), applies the tanh form of GELU scaled by two (`act`), and takes each row's maximum over the 2048 groups
  (`rowMax`). The kernel averages the rows of `W` and the entries of `Bv` group by group first (`pooledW`,
  `pooledB`), multiplies `X` by the pooled matrix and adds the pooled vector (`preK`), applies the same `act`,
  and takes the row maximum in four steps of 512 columns each, carrying the running maximum (`run`).

  Averaging is linear, so `preK = preR` when the inputs are real numbers; and a maximum taken block after block
  is the maximum over all columns. Both facts are stated in the module that proves them; here are only the
  definitions, over plain coordinate functions.
-/
import Idealize.ShloMosaic.PureOps.Ideal

noncomputable section

namespace Cert.Spec

open Idealize.ShloMosaic
open scoped BigOperators

/-! ## The float literals the two programs share, at their exact binary values -/

abbrev cZero : EReal := Ideal.ofBits .f32 0x00000000#32
abbrev cHalf : EReal := Ideal.ofBits .f32 0x3F000000#32
abbrev cCube : EReal := Ideal.ofBits .f32 0x3D372713#32
abbrev cTanh : EReal := Ideal.ofBits .f32 0x3F4C422A#32
abbrev cOne : EReal := Ideal.ofBits .f32 0x3F800000#32
abbrev cTwo : EReal := Ideal.ofBits .f32 0x40000000#32
abbrev cFour : EReal := Ideal.ofBits .f32 0x40800000#32
/-- The pattern of `-∞`, the value every maximum starts from. -/
abbrev negInf : EReal := Ideal.ofBits .f32 0xFF800000#32

/-- Twice the tanh form of GELU: `((½ p) (1 + tanh (c (p + ((a p) p) p)))) · 2`, in the programs' own order of
    operations. -/
def act (p : EReal) : EReal :=
  ((cHalf * p) * (cOne + Ideal.tanh (cTanh * (p + ((cCube * p) * p) * p)))) * cTwo

/-- Member `k` of group `n`: row `4 n + k`. -/
def row4 (n : Fin 2048) (k : Fin 4) : Fin 8192 := ⟨n.val * 4 + k.val, by omega⟩

/-- The average of the four rows of group `n`, at column `i`: the host's sum from zero, then its quotient by four. -/
def pooledW (W : Fin 8192 → Fin 4096 → EReal) (n : Fin 2048) (i : Fin 4096) : EReal :=
  Ideal.div (cZero + ∑ k : Fin 4, W (row4 n k) i) cFour

/-- The average of the four entries of group `n`. -/
def pooledB (Bv : Fin 8192 → EReal) (n : Fin 2048) : EReal :=
  Ideal.div (cZero + ∑ k : Fin 4, Bv (row4 n k)) cFour

/-- The kernel's pre-activation: row `b` of `X` against the pooled row `n`, plus the pooled bias. -/
def preK (X : Fin 16384 → Fin 4096 → EReal) (W : Fin 8192 → Fin 4096 → EReal) (Bv : Fin 8192 → EReal)
    (b : Fin 16384) (n : Fin 2048) : EReal :=
  (∑ i : Fin 4096, X b i * pooledW W n i) + pooledB Bv n

/-- The reference's pre-activation: the average over group `n` of (row `b` of `X` against row `4 n + k` of `W`,
    plus `Bv (4 n + k)`). -/
def preR (X : Fin 16384 → Fin 4096 → EReal) (W : Fin 8192 → Fin 4096 → EReal) (Bv : Fin 8192 → EReal)
    (b : Fin 16384) (n : Fin 2048) : EReal :=
  Ideal.div (cZero + ∑ k : Fin 4, ((∑ i : Fin 4096, X b i * W (row4 n k) i) + Bv (row4 n k))) cFour

/-- The maximum of a row of 2048 values, from `-∞`. -/
def rowMax (g : Fin 2048 → EReal) : EReal := (Finset.univ : Finset (Fin 2048)).fold max negInf g

/-- Column `l` of the block of 512 columns that grid position `j` works on (its block is `j mod 4`). -/
def col (j : ℕ) (l : Fin 512) : Fin 2048 := ⟨512 * (j % 4) + l.val, by omega⟩

/-- The maximum over the block of position `j`, from `-∞`. -/
def blockMax (g : Fin 2048 → EReal) (j : ℕ) : EReal :=
  (Finset.univ : Finset (Fin 512)).fold max negInf (fun l => g (col j l))

/-- The running maximum the kernel carries: reset to `-∞` before block 0, then each block's maximum folded in. -/
def run (g : Fin 2048 → EReal) : ℕ → EReal
  | 0 => max negInf (blockMax g 0)
  | j + 1 => max (run g j) (blockMax g (j + 1))

/-- Row `r` of the block of 256 rows that grid position `t` works on (its row block is `t / 4`, one of 64). -/
def rowOf (t : ℕ) (r : Fin 256) : Fin 16384 := ⟨256 * ((t / 4) % 64) + r.val, by omega⟩

/-- What the reference leaves at row `b`. -/
def outR (X : Fin 16384 → Fin 4096 → EReal) (W : Fin 8192 → Fin 4096 → EReal) (Bv : Fin 8192 → EReal)
    (b : Fin 16384) : EReal :=
  rowMax (fun n => act (preR X W Bv b n))

/-- What the kernel leaves at row `b` after its fourth block. -/
def outK (X : Fin 16384 → Fin 4096 → EReal) (W : Fin 8192 → Fin 4096 → EReal) (Bv : Fin 8192 → EReal)
    (b : Fin 16384) : EReal :=
  run (fun n => act (preK X W Bv b n)) 3

end Cert.Spec

end
-- ==== Proof.SpecLaws.lean ====
/-
  Two facts about the function of the specification, on the extended reals.

  First, averaging is linear: when every entry of the two matrices and of the vector is a real number, averaging
  the rows of the second matrix (and the entries of the vector) in groups of four and then multiplying gives the
  same pre-activation as multiplying first and then averaging the four adjacent columns of the product
  (pre_eq). Every quantity is then the image of a real number, so the statement is the linearity of a finite sum
  of reals: a factor moves into a sum, a sum of sums splits, and two finite sums change places.

  Second, a maximum taken block after block is the maximum over all columns: the running maximum carried through
  the four blocks of 512 columns, started from minus infinity, is the maximum of the whole row of 2048 values
  (run_three). Every column lies in exactly one of the four blocks, so each side is below the other.

  Together they say that the kernel's row result is the reference's (outK_eq_outR).
-/
import proofs.«116052_j3556232922346_1_alg».proof.Proof.Spec
import Idealize.ShloMosaic.PureOps.Ideal.Laws
import Mathlib.Data.Finset.Fold
import Mathlib.Algebra.BigOperators.Ring.Finset

noncomputable section

namespace Cert.Spec

open Idealize.ShloMosaic
open scoped BigOperators

/-- The pattern with sign bit set, all-ones exponent and zero significand is minus infinity, the least
    extended real. -/
theorem negInf_eq_bot : negInf = (⊥ : EReal) := by
  simp [negInf, Ideal.ofBits, Ideal.ieee]

/-- The pattern 0x40800000 is the real number four. -/
private theorem cFour_eq : cFour = ((4 : ℝ) : EReal) := by
  simp [cFour, Ideal.ofBits, Ideal.ieee, -EReal.coe_mul]
  norm_num

/-- The pattern of all zeros is zero. -/
private theorem cZero_eq : cZero = (0 : EReal) := Ideal.ofBits_zero_f32

/-- The image of a finite sum of reals is the sum of the images. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Linearity of the average, over the reals: the sum of products with the averaged rows, plus the averaged
    entries, is the average of the four (sum of products plus entry). -/
private theorem real_linear (x : Fin 4096 → ℝ) (w : Fin 4 → Fin 4096 → ℝ) (c : Fin 4 → ℝ) :
    (∑ i, x i * ((0 + ∑ k, w k i) * (1 / 4))) + (0 + ∑ k, c k) * (1 / 4)
      = (0 + ∑ k, ((∑ i, x i * w k i) + c k)) * (1 / 4) := by
  simp only [zero_add, Finset.sum_add_distrib, add_mul]
  congr 1
  rw [Finset.sum_comm, Finset.sum_mul]
  refine Finset.sum_congr rfl fun i _ => ?_
  rw [← Finset.mul_sum]
  ring

theorem pre_eq (X : Fin 16384 → Fin 4096 → EReal) (W : Fin 8192 → Fin 4096 → EReal) (Bv : Fin 8192 → EReal)
    (hX : ∀ b i, ∃ r : ℝ, X b i = (r : EReal)) (hW : ∀ r i, ∃ s : ℝ, W r i = (s : EReal))
    (hB : ∀ r, ∃ s : ℝ, Bv r = (s : EReal))
    (b : Fin 16384) (n : Fin 2048) : preK X W Bv b n = preR X W Bv b n := by
  choose x hx using hX
  choose w hw using hW
  choose c hc using hB
  have h4 : (4 : ℝ) ≠ 0 := by norm_num
  unfold preK preR pooledW pooledB
  simp only [hx, hw, hc, cFour_eq, cZero_eq, Ideal.div_coe h4, ← EReal.coe_zero, ← coe_sum, ← EReal.coe_add,
    ← EReal.coe_mul]
  exact congrArg _ (real_linear (x b) (fun k i => w (row4 n k) i) (fun k => c (row4 n k)))

/-- Every block's maximum is below the running maximum after the fourth block. -/
private theorem blockMax_le_run_three (g : Fin 2048 → EReal) (j : ℕ) (hj : j < 4) : blockMax g j ≤ run g 3 := by
  have h3 : run g 3 = max (max (max (max negInf (blockMax g 0)) (blockMax g 1)) (blockMax g 2)) (blockMax g 3) := rfl
  rw [h3]
  have : j = 0 ∨ j = 1 ∨ j = 2 ∨ j = 3 := by omega
  rcases this with rfl | rfl | rfl | rfl
  · exact le_max_of_le_left (le_max_of_le_left (le_max_of_le_left (le_max_right _ _)))
  · exact le_max_of_le_left (le_max_of_le_left (le_max_right _ _))
  · exact le_max_of_le_left (le_max_right _ _)
  · exact le_max_right _ _

theorem run_three (g : Fin 2048 → EReal) : run g 3 = rowMax g := by
  apply le_antisymm
  · -- each block's maximum is a maximum of entries of the row
    have hb : ∀ j, blockMax g j ≤ rowMax g := fun j => by
      unfold blockMax rowMax
      rw [Finset.fold_max_le]
      refine ⟨by rw [negInf_eq_bot]; exact bot_le, fun l _ => ?_⟩
      rw [Finset.le_fold_max]
      exact Or.inr ⟨col j l, Finset.mem_univ _, le_rfl⟩
    have h3 : run g 3 = max (max (max (max negInf (blockMax g 0)) (blockMax g 1)) (blockMax g 2)) (blockMax g 3) := rfl
    rw [h3]
    refine max_le (max_le (max_le (max_le ?_ (hb 0)) (hb 1)) (hb 2)) (hb 3)
    rw [negInf_eq_bot]; exact bot_le
  · -- each entry of the row lies in one of the four blocks
    unfold rowMax
    rw [Finset.fold_max_le]
    refine ⟨by rw [negInf_eq_bot]; exact bot_le, fun n _ => ?_⟩
    have hn := n.isLt
    have hcol : n = col (n.val / 512) ⟨n.val % 512, Nat.mod_lt _ (by norm_num)⟩ := by
      apply Fin.ext
      show n.val = 512 * (n.val / 512 % 4) + n.val % 512
      omega
    refine le_trans ?_ (blockMax_le_run_three g (n.val / 512) (by omega))
    unfold blockMax
    rw [Finset.le_fold_max]
    exact Or.inr ⟨⟨n.val % 512, Nat.mod_lt _ (by norm_num)⟩, Finset.mem_univ _, by rw [← hcol]⟩

theorem outK_eq_outR (X : Fin 16384 → Fin 4096 → EReal) (W : Fin 8192 → Fin 4096 → EReal) (Bv : Fin 8192 → EReal)
    (hX : ∀ b i, ∃ r : ℝ, X b i = (r : EReal)) (hW : ∀ r i, ∃ s : ℝ, W r i = (s : EReal))
    (hB : ∀ r, ∃ s : ℝ, Bv r = (s : EReal))
    (b : Fin 16384) : outK X W Bv b = outR X W Bv b := by
  unfold outK outR
  rw [run_three]
  congr 1
  funext n
  rw [pre_eq X W Bv hX hW hB b n]

end Cert.Spec

end
-- ==== Proof.Finite.lean ====
/-
  From the precondition to the real-valuedness of the inputs.

  The precondition tests, for each of the three float arrays, that |x| < +∞ at every entry, reduces each
  array of tests by "and" to a single bit, and takes the "and" of the three bits. Here: if that last bit
  is 1 then every entry of every one of the three arrays is a real number (neither +∞ nor −∞).

  The steps: an "and" of two bits is 1 only if both are; a reduction by "and" that is 1 met only 1s; the
  word 0x7F800000 read as an extended real is +∞; over the extended reals |x| is max x (−x), which is +∞
  at both infinities, so |x| < +∞ leaves only the reals.
-/
import proofs.«116052_j3556232922346_1_alg».proof.Pre_finite_inputs
import Idealize.ShloMosaic.PureOps.Ideal
import Idealize.ShloMosaic.Lib.ReduceAll
import Idealize.ShloMosaic.Lib.ValueIdx

noncomputable section

namespace Cert.Finite

open Cert.Pre_finite_inputs Idealize.ShloMosaic

variable [Cert.Pre_finite_inputs.Facts]

/-- The shape with no axes has exactly one index. -/
instance subsingleton_scalar_idx : Subsingleton S_.Idx := ⟨fun a b => funext fun d => d.elim0⟩

/-- The single-precision word of +∞, read as an extended real, is ⊤. -/
theorem inf_word_eq_top : Ideal.ofBits .f32 0x7F800000#32 = (⊤ : EReal) := by
  simp [Ideal.ofBits, Ideal.ieee]

/-- An extended real whose absolute value max x (−x) lies strictly below ⊤ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The element test of the precondition, at one value: if "|x| < +∞" evaluates to the bit 1, x is real. -/
theorem real_of_test (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_word_eq_top] at h'
  unfold Ideal.cmp at h'
  by_cases hlt : max (x : EReal) (-(x : EReal)) < ⊤
  · exact real_of_abs_lt_top x hlt
  · simp [hlt] at h'

theorem reals_of_pre (x0 : FVec Ideal S16384x4096 .f32) (x1 : FVec Ideal S8192x4096 .f32) (x2 : FVec Ideal S8192 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_test (x0 i) (Host.reduce_andi_all _ _ _ _ _ h0' i)
  · exact real_of_test (x1 i) (Host.reduce_andi_all _ _ _ _ _ h1 i)
  · exact real_of_test (x2 i) (Host.reduce_andi_all _ _ _ _ _ h2 i)

end Cert.Finite

end
-- ==== Proof.RefValue.lean ====
/-
  The reference program's result, read index by index, is the specification's `outR`.

  The reference forms `X Wᵀ + Bv` (16384 × 8192), regroups its columns as 2048 groups of four (column `4 n + k` is
  member `k` of group `n`), sums each group from zero and divides by four, applies twice the tanh form of GELU
  elementwise, and takes each row's maximum over the 2048 groups, from `-∞`.

  Three steps. (1) The sum `X Wᵀ + Bv` at row `b`, column `r` is `∑ i, X b i * W r i + Bv r`. (2) The group average at
  `(b, n)` is `preR X W Bv b n`: the regrouping reads row `b`, column `4 n + k`, because
  `((2048 b + n) 4 + k) / 8192 = b` and `((2048 b + n) 4 + k) % 8192 = 4 n + k`. (3) The elementwise chain after
  the average is `act`, and a maximum over one axis of a rank-2 array, read at row `b`, is the fold of `max` over
  that row's 2048 entries, which is `rowMax`.
-/
import proofs.«116052_j3556232922346_1_alg».proof.Proof.Gen.ReferenceIdeal.Read
import proofs.«116052_j3556232922346_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
open scoped BigOperators

section Steps

variable (x0 : (⟨S16384x4096, .f32⟩ : BufTy).Contents (Elt Ideal)) (x1 : (⟨S8192x4096, .f32⟩ : BufTy).Contents (Elt Ideal))
  (x2 : (⟨S8192, .f32⟩ : BufTy).Contents (Elt Ideal))

/-! ## The inputs as coordinate functions -/

/-- `X b i`. -/
abbrev X : Fin 16384 → Fin 4096 → EReal := fun b i => x0 (ix2 b i)
/-- `W r i`. -/
abbrev W : Fin 8192 → Fin 4096 → EReal := fun r i => x1 (ix2 r i)
/-- `Bv r`. -/
abbrev Bv : Fin 8192 → EReal := fun r => x2 (ix1 r)

/-! ## Step 1: the product plus the bias, at row `b`, column `r` -/

/-- The left operand of the product at `(b, r)`, term `i`, is read at row `b`, column `i`. -/
theorem lidx_at (b : Fin 16384) (r : Fin 8192) (i : Fin 4096) : lidx_main_v0 (ix2 b r) i = ix2 b i := by
  funext a; match a with | ⟨0, _⟩ => rfl | ⟨1, _⟩ => rfl

/-- The right operand of the product at `(b, r)`, term `i`, is read at row `r`, column `i`. -/
theorem ridx_at (b : Fin 16384) (r : Fin 8192) (i : Fin 4096) : ridx_main_v0 (ix2 b r) i = ix2 r i := by
  funext a; match a with | ⟨0, _⟩ => rfl | ⟨1, _⟩ => rfl

/-- The bias, broadcast to a row and then down the rows, is read at `(b, r)` at its entry `r`. -/
theorem bidx_at (b : Fin 16384) (r : Fin 8192) : idx_main_v1 (idx_main_v2 (ix2 b r)) = ix1 r := by
  funext a; match a with | ⟨0, _⟩ => rfl

theorem v3_at (b : Fin 16384) (r : Fin 8192) :
    val_main_v3 (F := Ideal) x0 x1 x2 (ix2 b r) = (∑ i : Fin 4096, X x0 b i * W x1 r i) + Bv x2 r := by
  rw [val_main_v3_apply, val_main_v0_apply, val_main_v2_apply, val_main_v1_apply, bidx_at]
  simp only [lidx_at, ridx_at, Ideal.addf_def]

/-! ## Step 2: the group average at `(b, n)` -/

/-- The regrouped array at `(b, n, k)` is the ungrouped one at row `b`, column `4 n + k`. -/
theorem gidx_at (b : Fin 16384) (n : Fin 2048) (k : Fin 4) :
    idx_main_v4 (idx_main_v5 (ix2 b n) k) = ix2 b (Cert.Spec.row4 n k) := by
  have hb : b.val < 16384 := b.isLt
  have hn : n.val < 2048 := n.isLt
  have hk : k.val < 4 := k.isLt
  funext a
  apply Fin.ext
  match a with
  | ⟨0, _⟩ =>
    show ((b.val * 2048 + n.val) * 4 + k.val) / 8192 = b.val
    omega
  | ⟨1, _⟩ =>
    show ((b.val * 2048 + n.val) * 4 + k.val) % 8192 = n.val * 4 + k.val
    omega

theorem v7_at (b : Fin 16384) (n : Fin 2048) :
    val_main_v7 (F := Ideal) x0 x1 x2 (ix2 b n) = Cert.Spec.preR (X x0) (W x1) (Bv x2) b n := by
  rw [val_main_v7_apply, val_main_v5_apply, val_main_v6_apply, val_main_cst_0_apply, val_main_cst_apply]
  simp only [val_main_v4_apply, gidx_at, v3_at, Ideal.hostDivf_def, Ideal.ofBits_def]
  rfl

/-! ## Step 3: the elementwise chain, then the row maximum -/

/-- After the average `p` the reference computes `act p`, at every index. -/
theorem v22_eq_act (i : S16384x2048.Idx) :
    val_main_v22 (F := Ideal) x0 x1 x2 i = Cert.Spec.act (val_main_v7 (F := Ideal) x0 x1 x2 i) := by
  rw [val_main_v22_apply, val_main_v20_apply, val_main_v9_apply, val_main_v19_apply, val_main_v17_apply,
    val_main_v16_apply, val_main_v14_apply, val_main_v13_apply, val_main_v12_apply, val_main_v11_apply,
    val_main_v8_apply, val_main_v18_apply, val_main_v15_apply, val_main_v10_apply, val_main_v21_apply,
    val_main_cst_1_apply, val_main_cst_4_apply, val_main_cst_3_apply, val_main_cst_2_apply, val_main_cst_5_apply]
  simp only [Ideal.mulf_def, Ideal.addf_def, Ideal.hostUnary_tanh_def, Ideal.ofBits_def]
  rfl

theorem v22_at (b : Fin 16384) (n : Fin 2048) :
    val_main_v22 (F := Ideal) x0 x1 x2 (ix2 b n) = Cert.Spec.act (Cert.Spec.preR (X x0) (W x1) (Bv x2) b n) := by
  rw [v22_eq_act, v7_at]

/-- The rank-2 shape with its second axis dropped is the rank-1 shape of its rows. -/
theorem reduces_rows : S16384x2048.Reduces [1] S16384 := by decide

/-- Row `j` with column `n` inserted is the index `(j, n)`. -/
theorem lift_at (j : S16384.Idx) (n : Fin 2048) : reduces_rows.lift j n = ix2 (j 0) n := by
  funext a; match a with | ⟨0, _⟩ => rfl | ⟨1, _⟩ => rfl

end Steps

/-- The reference's result at row `j` is `outR` of the three inputs read by coordinates. -/
theorem ref_eq_spec (x0 : (⟨S16384x4096, .f32⟩ : BufTy).Contents (Elt Ideal)) (x1 : (⟨S8192x4096, .f32⟩ : BufTy).Contents (Elt Ideal)) (x2 : (⟨S8192, .f32⟩ : BufTy).Contents (Elt Ideal)) (j : S16384.Idx) :
    val_main_v23 (F := Ideal) x0 x1 x2 j
      = Cert.Spec.outR (fun b i => x0 (ix2 b i)) (fun r i => x1 (ix2 r i)) (fun r => x2 (ix1 r)) (j 0) := by
  unfold val_main_v23
  rw [Host.reduce_eq_fold_single FloatOps.maximumf _ _ reducesTo_S16384x2048_S16384_d1 reduces_rows h_S_ j]
  unfold Cert.Spec.outR Cert.Spec.rowMax
  refine congrArg₂ (fun i g => (Finset.univ : Finset (Fin 2048)).fold max i g) ?_ ?_
  · rfl
  · funext n
    exact (congrArg (val_main_v22 (F := Ideal) x0 x1 x2) (lift_at j n)).trans (v22_at x0 x1 x2 (j 0) n)

end Cert.ReferenceIdeal.RefValue

end
-- ==== Proof.KArgs.lean ====
/-
  The kernel program's three argument arrays, read by coordinates: `X c b i` is entry `(b, i)` of the first
  argument as core `c` finds it at launch, `W c r i` entry `(r, i)` of the second, `Bv c r` entry `r` of the third.
  These are the coordinate functions the specification is stated over.
-/
import proofs.«116052_j3556232922346_1_alg».proof.KernelIdeal
import Idealize.ShloMosaic.Lib.ValueIdx

noncomputable section

namespace Cert.KernelIdeal.Args

open Cert.KernelIdeal Idealize.ShloMosaic Idealize.ShloMosaic.TcCoe Idealize.SL.Sem Idealize.ShloMosaic.ValueIdx

variable [Cert.KernelIdeal.Facts]
variable (m : (ℓ : Loc nD τ sig) → Buf (Elt Ideal) ℓ)

/-- The first argument by coordinates. -/
def X (c : Dev nD) (b : Fin 16384) (i : Fin 4096) : EReal := (m ((c.tc : Thread nD τ).loc main_arg0) : S16384x4096.Idx → EReal) (ix2 b i)

/-- The second argument by coordinates. -/
def W (c : Dev nD) (r : Fin 8192) (i : Fin 4096) : EReal := (m ((c.tc : Thread nD τ).loc main_arg1) : S8192x4096.Idx → EReal) (ix2 r i)

/-- The third argument by coordinates. -/
def Bv (c : Dev nD) (r : Fin 8192) : EReal := (m ((c.tc : Thread nD τ).loc main_arg2) : S8192.Idx → EReal) (ix1 r)

end Cert.KernelIdeal.Args

end
-- ==== Proof.KPieces.lean ====
/-
  What one run of the kernel body leaves behind, case by case, as a value.

  The body keeps a running row maximum in a scratch block of 256 × 1 entries. At a grid point whose column block is
  the first, the body resets the scratch to `-∞` and then stores the body's one arithmetic term (the payload
  `k0_pay2`: the old scratch against the lane maximum of this point's activations) computed from that fresh `-∞`
  block; at every other point it stores the same term computed from what the previous point left. At a point whose
  column block is the last it also copies the scratch, as just stored, into the output block. Each statement below
  says that the contents found after the run are that payload of the point's three input blocks and the incoming
  scratch. They hold at every float instance.
-/
import proofs.«116052_j3556232922346_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a whole-block access. -/
theorem hz : (![0, 0] : Fin 2 → Nat) = fun _ => 0 := funext fun a => by fin_cases a <;> rfl

/-- First column block: the scratch ends at the payload of the input blocks and the fresh `-∞` block (the reset is
    stored first and read back by the update). -/
theorem sout_A (c : Dev nD) (i : grid0.Coords) (arg2 : Memref sig .tc .vmem S256x4096 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S256x1 .f32) (harg5 : arg5.IsWhole) (arg6 : Memref sig .tc .vmem S256x1 .f32) (harg6 : arg6.IsWhole) (hc0 : cond0_0 i) (hc1 : ¬cond0_1 i)
    (x0 : Vec F S256x4096 .f32) (x1 : Vec F S512x4096 .f32) (x2 : Vec F S1x512 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, harg6.read_unread,
    View.ld_unit_zero (S := S256x4096) hz, View.ld_unit_zero (S := S512x4096) hz, View.ld_unit_zero (S := S1x512) hz,
    View.ld_unit_zero (S := S256x1) hz]

/-- A middle column block: the scratch ends at the payload of the input blocks and what the point before left. -/
theorem sout_B (c : Dev nD) (i : grid0.Coords) (arg2 : Memref sig .tc .vmem S256x4096 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : ¬cond0_1 i)
    (x0 : Vec F S256x4096 .f32) (x1 : Vec F S512x4096 .f32) (x2 : Vec F S1x512 .f32) (xs0 : Vec F S256x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S256x4096) hz, View.ld_unit_zero (S := S512x4096) hz, View.ld_unit_zero (S := S1x512) hz,
    View.ld_unit_zero (S := S256x1) hz]

/-- The last column block: the scratch ends at the same payload … -/
theorem sout_C (c : Dev nD) (i : grid0.Coords) (arg2 : Memref sig .tc .vmem S256x4096 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : cond0_1 i)
    (x0 : Vec F S256x4096 .f32) (x1 : Vec F S512x4096 .f32) (x2 : Vec F S1x512 .f32) (xs0 : Vec F S256x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S256x4096) hz, View.ld_unit_zero (S := S512x4096) hz, View.ld_unit_zero (S := S1x512) hz,
    View.ld_unit_zero (S := S256x1) hz]

/-- … and the output block is the scratch as just stored: the same payload. -/
theorem out_C (c : Dev nD) (i : grid0.Coords) (arg2 : Memref sig .tc .vmem S256x4096 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : cond0_1 i)
    (x0 : Vec F S256x4096 .f32) (x1 : Vec F S512x4096 .f32) (x2 : Vec F S1x512 .f32) (xs0 : Vec F S256x1 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S256x1) _ hz]
  simp only [View.readAt_eq_ld, harg2.read_unread, harg3.read_unread, harg4.read_unread, harg6.read_unread,
    View.ld_unit_zero (S := S256x4096) hz, View.ld_unit_zero (S := S512x4096) hz, View.ld_unit_zero (S := S1x512) hz,
    View.ld_unit_zero (S := S256x1) hz]

end Cert.KernelIdeal.Pieces

end
-- ==== Proof.KPayload.lean ====
/-
  The arithmetic of the kernel body, read one entry at a time on the extended reals.

  The body keeps a column of 256 running maxima. Its first payload is the column of -∞ that the running maxima
  start from. Its second payload takes a 256 × 4096 block `x0`, a 512 × 4096 block `x1`, a row `x2` of 512 biases
  and the column `acc` of running maxima, and leaves at row `r` the larger of `acc r` and the maximum, from -∞, over
  the 512 columns `l` of `act ((∑ i, x0 r i * x1 l i) + x2 l)`: the product of `x0` with the transpose of `x1`, plus
  the bias row repeated down the 256 rows, through the activation, then each row's maximum.

  On the extended reals the body's changes of number format are the identity, and its changes of shape keep every
  entry where it was: a column [256] viewed as [256, 1] has entry `r` at `(r, 0)`, and the row [1, 512] repeated to
  [256, 512] has entry `(0, l)` at every `(r, l)`. The product is read through the contraction's one coordinate: the
  left factor at `(r, i)`, the right factor at `(l, i)`.
-/
import proofs.«116052_j3556232922346_1_alg».proof.Proof.Gen.KernelIdeal.Skeleton
import proofs.«116052_j3556232922346_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx
open scoped BigOperators

/-! ## The first payload: the column of -∞ -/

/-- Every entry of the first payload is -∞. -/
theorem pay1_apply (y : S256x1.Idx) : k0_pay1 (F := Ideal) y = Cert.Spec.negInf := by
  unfold k0_pay1
  rw [shapeCast_self]
  rfl

/-! ## The product: which entries of the two factors meet at output entry `(r, l)` -/

/-- The left factor's row is the output's row. -/
theorem lhs_axis0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl

/-- The left factor's column is the contracted coordinate. -/
theorem lhs_axis1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q

/-- The right factor's row is the output's column: the right factor enters transposed. -/
theorem rhs_axis0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl

/-- The right factor's column is the contracted coordinate. -/
theorem rhs_axis1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

/-- The product into a zero accumulator at `(r, l)`: row `r` of the left factor against row `l` of the right. -/
theorem matmul_at (a : FVec Ideal S256x4096 .bf16) (b : FVec Ideal S512x4096 .bf16) (r : Fin 256) (l : Fin 512) :
    matmul dot_S256x4096_S512x4096_S256x512_1_1_0_0_n_n none a b (constant (F := Ideal) S256x512 .f32 0x00000000#32) (ix2 r l)
      = ∑ i : Fin 4096, a (ix2 r i) * b (ix2 l i) := by
  simp only [matmul]
  rw [Ideal.matmul_constant_zero_apply, ← Equiv.sum_comp (ValueIdx.contrEquiv1 dot_S256x4096_S512x4096_S256x512_1_1_0_0_n_n 4096 rfl rfl).symm]
  refine Finset.sum_congr rfl fun k _ => ?_
  have hk := ValueIdx.contrEquiv1_symm_val dot_S256x4096_S512x4096_S256x512_1_1_0_0_n_n 4096 rfl rfl k
  have el : dot_S256x4096_S512x4096_S256x512_1_1_0_0_n_n.lhsIdx (ix2 r l) ((ValueIdx.contrEquiv1 dot_S256x4096_S512x4096_S256x512_1_1_0_0_n_n 4096 rfl rfl).symm k) = ix2 r k := funext fun c => Fin.ext (by
    match c with
    | ⟨0, _⟩ => exact lhs_axis0 _ _
    | ⟨1, _⟩ => exact (lhs_axis1 _ _).trans hk)
  have er : dot_S256x4096_S512x4096_S256x512_1_1_0_0_n_n.rhsIdx (ix2 r l) ((ValueIdx.contrEquiv1 dot_S256x4096_S512x4096_S256x512_1_1_0_0_n_n 4096 rfl rfl).symm k) = ix2 l k := funext fun c => Fin.ext (by
    match c with
    | ⟨0, _⟩ => exact rhs_axis0 _ _
    | ⟨1, _⟩ => exact (rhs_axis1 _ _).trans hk)
  rw [el, er]

/-! ## The changes of shape -/

/-- The bias row repeated down the rows: entry `(r, l)` is entry `(0, l)` of the row. -/
theorem biasRow_at (x : S1x512.Idx → EReal) (r : Fin 256) (l : Fin 512) :
    broadcastTo S256x512 x broadcasts_S1x512_S256x512 (ix2 r l) = x (ix2 0 l) :=
  broadcastTo_apply x broadcasts_S1x512_S256x512 (ix2 r l) (ix2 0 l) (fun c => match c with
    | ⟨0, _⟩ => by show 0 = if (1 : Nat) = 1 then 0 else r.val; rw [if_pos rfl]
    | ⟨1, _⟩ => by show l.val = if (512 : Nat) = 1 then 0 else l.val; rw [if_neg (by decide)])

/-- A column of 256 entries viewed as 256 × 1: entry `(r, 0)` is entry `r`. -/
theorem column_at (v : S256.Idx → EReal) (r : Fin 256) :
    shapeCast S256x1 v shapeCasts_S256_S256x1 (ix2 r 0) = v (ix1 r) :=
  shapeCast_apply v shapeCasts_S256_S256x1 (ix2 r 0) (ix1 r)
    (by rewrite [Shape.rowMajor_val_one, Shape.rowMajor_val_two]; show r.val = r.val * 1 + 0; omega)

/-! ## Each row's maximum -/

/-- The maximum over the 512 columns, from -∞, at row `r`. -/
theorem rowMax_at (src : FVec Ideal S256x512 .f32) (r : Fin 256) :
    multiReduction (F := Ideal) .maximumf [1] S256 src 0xFF800000#32 reduces_S256x512_S256 (.inl rfl) rfl (ix1 r)
      = (Finset.univ : Finset (Fin 512)).fold max Cert.Spec.negInf (fun l => src (ix2 r l)) := by
  refine (Ideal.multiReduction_maximumf_single src 0xFF800000#32 reduces_S256x512_S256 (.inl rfl) rfl (ix1 r)).trans ?_
  show (Finset.univ : Finset (Fin 512)).fold max (Ideal.ofBits .f32 0xFF800000#32) (fun l => src (reduces_S256x512_S256.lift (ix1 r) l)) = _
  refine Finset.fold_congr fun l _ => congrArg src (funext fun c => Fin.ext ?_)
  match c with
  | ⟨0, _⟩ => rfl
  | ⟨1, _⟩ => rfl

/-! ## The entries the maximum is taken over -/

/-- The pre-activation at `(r, l)`: row `r` of `x0` against row `l` of `x1`, plus bias `l`. The two roundings to the
    narrower format and the two casts to the same shape change nothing. -/
theorem pre_at (x0 : Vec Ideal S256x4096 .f32) (x1 : Vec Ideal S512x4096 .f32) (x2 : Vec Ideal S1x512 .f32) (r : Fin 256) (l : Fin 512) :
    addf (matmul dot_S256x4096_S512x4096_S256x512_1_1_0_0_n_n none (truncf .bf16 x0 bitsLt_bf16_f32)
          (truncf .bf16 (shapeCast S512x4096 x1 shapeCasts_S512x4096_S512x4096) bitsLt_bf16_f32)
          (constant (F := Ideal) S256x512 .f32 0x00000000#32))
        (broadcastTo S256x512 (shapeCast S1x512 x2 shapeCasts_S1x512_S1x512) broadcasts_S1x512_S256x512) (ix2 r l)
      = (∑ i : Fin 4096, x0 (ix2 r i) * x1 (ix2 l i)) + x2 (ix2 0 l) := by
  rw [shapeCast_self, shapeCast_self]
  refine (addf_apply _ _ _).trans ?_
  rw [matmul_at, biasRow_at]
  rfl

/-- The activation, applied entry by entry in the body's order of operations, is `act` of the entry. -/
theorem act_at (p : FVec Ideal S256x512 .f32) (j : S256x512.Idx) :
    mulf
        (mulf (mulf (broadcast S256x512 (FloatOps.ofBits (F := Ideal) .f32 0x3F000000#32)) p)
          (addf (broadcast S256x512 (FloatOps.ofBits (F := Ideal) .f32 0x3F800000#32))
            (tanh
              (mulf (broadcast S256x512 (FloatOps.ofBits (F := Ideal) .f32 0x3F4C422A#32))
                (addf p
                  (mulf (mulf (mulf (broadcast S256x512 (FloatOps.ofBits (F := Ideal) .f32 0x3D372713#32)) p) p) p))))))
        (broadcast S256x512 (FloatOps.ofBits (F := Ideal) .f32 0x40000000#32)) j
      = Cert.Spec.act (p j) := rfl

/-! ## The second payload -/

/-- Row `r` of the second payload: the running maximum there against the row's maximum of the activations. -/
theorem pay2_apply (x0 : Vec Ideal S256x4096 .f32) (x1 : Vec Ideal S512x4096 .f32) (x2 : Vec Ideal S1x512 .f32) (acc : Vec Ideal S256x1 .f32) (r : Fin 256) :
    k0_pay2 (F := Ideal) x0 x1 x2 acc (ix2 r 0)
      = max (acc (ix2 r 0))
          ((Finset.univ : Finset (Fin 512)).fold max Cert.Spec.negInf
            (fun l => Cert.Spec.act ((∑ i : Fin 4096, x0 (ix2 r i) * x1 (ix2 l i)) + x2 (ix2 0 l)))) := by
  unfold k0_pay2
  refine (congrFun (shapeCast_self _ _) (ix2 r 0)).trans ?_
  refine (maximumf_apply _ _ _).trans ?_
  refine congrArg (max (acc (ix2 r 0))) ?_
  refine (column_at _ r).trans ?_
  refine (rowMax_at _ r).trans ?_
  refine Finset.fold_congr fun l _ => ?_
  refine (act_at _ (ix2 r l)).trans ?_
  exact congrArg Cert.Spec.act (pre_at x0 x1 x2 r l)

end Cert.KernelIdeal.Payload

end
-- ==== Proof.KBlocks.lean ====
/-
  What each input window's block holds at a grid point, in terms of the program's three arguments.

  Before its one grid region the program computes two arrays on the host. From the second argument `W`
  (8192 × 4096) it regroups the rows in fours (row `4 n + k` is member `k` of group `n`), sums each group from zero
  and divides by four: the pooled matrix (2048 × 4096). From the third argument `Bv` (8192) it does the same to the
  entries and lays the 2048 quotients out as one row (1 × 2048).

  The region's grid has 64 × 4 = 256 points; point `t` has row block `t / 4` and column block `t % 4`. Its three
  input windows read: block `t / 4` of 256 rows of the first argument `X`; block `t % 4` of 512 rows of the pooled
  matrix; block `t % 4` of 512 entries of the pooled row. A block's coordinate in its array is always the block
  index times the block size plus the coordinate inside the block.

  So, entry by entry: window 0's block at `(r, i)` is `X` at row `256 (t / 4) + r`, column `i`; window 1's block
  at `(l, i)` is the average of the four rows of group `512 (t % 4) + l` of `W` at column `i`; window 2's block at
  `(0, l)` is the average of the four entries of group `512 (t % 4) + l` of `Bv`.
-/
import proofs.«116052_j3556232922346_1_alg».proof.Proof.Gen.KernelIdeal.Frame
import proofs.«116052_j3556232922346_1_alg».proof.Proof.Spec
import proofs.«116052_j3556232922346_1_alg».proof.Proof.KArgs
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Blocks

open Cert.KernelIdeal Cert.KernelIdeal.Gen Cert.KernelIdeal.Args Idealize.ShloMosaic Idealize.ShloMosaic.TcCoe Idealize.SL.Sem Idealize.ShloMosaic.ValueIdx

variable (m : (ℓ : Loc nD τ sig) → Buf (Elt Ideal) ℓ)

/-! ## Which block each window reads at a point -/

/-- Window 0 reads row block `t / 4`, the one column block. -/
theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
/-- Window 1 reads row block `t % 4` of the pooled matrix, the one column block. -/
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
/-- Window 2 reads the one row, column block `t % 4` of the pooled row. -/
theorem idx2 : ∀ t : Fin cfg0.N, win0_2.index t 0 = 0 ∧ win0_2.index t 1 = t.val % 4 :=
  (by decide +kernel : ∀ t : Fin grid0.N, win0_2.index t 0 = 0 ∧ win0_2.index t 1 = t.val % 4)

/-! ## The two arrays the host computes, as functions of the arguments -/

/-- The pooled matrix: the rows of `w` regrouped in fours, each group summed from zero, the sums divided by four. -/
def hostW (w : S8192x4096.Idx → EReal) : S2048x4096.Idx → EReal :=
  Host.divf (F := Ideal)
    (Host.reduceAdd (F := Ideal) (shapeCast S2048x4x4096 w shapeCasts_S8192x4096_S2048x4x4096)
      (constant (F := Ideal) S_ .f32 0x00000000#32) reducesTo_S2048x4x4096_S2048x4096_d1 h_S_)
    (broadcastInDim S2048x4096 ![] bcast_S_S2048x4096 (constant (F := Ideal) S_ .f32 0x40800000#32))

/-- The pooled vector: the entries of `b` regrouped in fours, each group summed from zero, the sums divided by four. -/
def hostB1 (b : S8192.Idx → EReal) : S2048.Idx → EReal :=
  Host.divf (F := Ideal)
    (Host.reduceAdd (F := Ideal) (shapeCast S2048x4 b shapeCasts_S8192_S2048x4)
      (constant (F := Ideal) S_ .f32 0x00000000#32) reducesTo_S2048x4_S2048_d1 h_S_)
    (broadcastInDim S2048 ![] bcast_S_S2048 (constant (F := Ideal) S_ .f32 0x40800000#32))

/-- The pooled vector laid out as one row of 2048. -/
def hostB (b : S8192.Idx → EReal) : S1x2048.Idx → EReal :=
  shapeCast S1x2048 (hostB1 b) shapeCasts_S2048_S1x2048

/-- The region finds the pooled matrix of the second argument in window 1's array. -/
theorem V_main_v3 (c : Dev nD) :
    (V m c main_v3 : S2048x4096.Idx → EReal) = hostW (m ((c.tc : Thread nD τ).loc main_arg1)) := by
  show StableHlo.after hostOps0 (fun b => m (c, b)) (Proc.devRef .tc main_v3) = _
  after_results
  rfl

/-- The region finds the pooled row of the third argument in window 2's array. -/
theorem V_main_v8 (c : Dev nD) :
    (V m c main_v8 : S1x2048.Idx → EReal) = hostB (m ((c.tc : Thread nD τ).loc main_arg2)) := by
  show StableHlo.after hostOps0 (fun b => m (c, b)) (Proc.devRef .tc main_v8) = _
  after_results
  rfl

/-! ## The host's arrays entry by entry -/

/-- Entry `(n, i)` of the pooled matrix: zero plus the four members of group `n` at column `i`, over four. The regrouping
    sends `(n, k, i)` to row `4 n + k`, column `i`: the same row-major position. -/
theorem hostW_apply (w : S8192x4096.Idx → EReal) (n : Fin 2048) (i : Fin 4096) :
    hostW w (ix2 n i) = Ideal.div (Cert.Spec.cZero + ∑ k : Fin 4, w (ix2 (Cert.Spec.row4 n k) i)) Cert.Spec.cFour := by
  unfold hostW
  show Ideal.div _ _ = Ideal.div _ _
  refine congrArg₂ Ideal.div ?_ ?_
  · simp only [Host.reduceAdd, Ideal.hostReduceAdd_def]
    rw [Ideal.hostReduceAdd_single reducesTo_S2048x4x4096_S2048x4096_d1 (by decide)]
    refine congrArg (_ + ·) (Finset.sum_congr rfl fun k _ => ?_)
    refine shapeCast_apply w shapeCasts_S8192x4096_S2048x4x4096 _ (ix2 (Cert.Spec.row4 n k) i) ?_
    rw [Shape.rowMajor_val_two, Shape.rowMajor_val_three]
    show (n.val * 4 + k.val) * 4096 + i.val = (n.val * 4 + k.val) * 4096 + i.val
    rfl
  · exact broadcastInDim_apply _ bcast_S_S2048x4096 _ _ (fun a => a.elim0) (fun a => a.elim0)

/-- Entry `n` of the pooled vector: zero plus the four members of group `n`, over four. The regrouping sends `(n, k)`
    to entry `4 n + k`. -/
theorem hostB1_apply (b : S8192.Idx → EReal) (n : Fin 2048) :
    hostB1 b (ix1 n) = Ideal.div (Cert.Spec.cZero + ∑ k : Fin 4, b (ix1 (Cert.Spec.row4 n k))) Cert.Spec.cFour := by
  unfold hostB1
  show Ideal.div _ _ = Ideal.div _ _
  refine congrArg₂ Ideal.div ?_ ?_
  · simp only [Host.reduceAdd, Ideal.hostReduceAdd_def]
    rw [Ideal.hostReduceAdd_single reducesTo_S2048x4_S2048_d1 (by decide)]
    refine congrArg (_ + ·) (Finset.sum_congr rfl fun k _ => ?_)
    refine shapeCast_apply b shapeCasts_S8192_S2048x4 _ (ix1 (Cert.Spec.row4 n k)) ?_
    rw [Shape.rowMajor_val_one, Shape.rowMajor_val_two]
    show n.val * 4 + k.val = n.val * 4 + k.val
    rfl
  · exact broadcastInDim_apply _ bcast_S_S2048 _ _ (fun a => a.elim0) (fun a => a.elim0)

/-- Entry `(0, n)` of the pooled row is entry `n` of the pooled vector. -/
theorem hostB_apply (b : S8192.Idx → EReal) (n : Fin 2048) :
    hostB b (ix2 (0 : Fin 1) n) = Ideal.div (Cert.Spec.cZero + ∑ k : Fin 4, b (ix1 (Cert.Spec.row4 n k))) Cert.Spec.cFour := by
  unfold hostB
  refine (shapeCast_apply (hostB1 b) shapeCasts_S2048_S1x2048 _ (ix1 n) ?_).trans (hostB1_apply b n)
  rw [Shape.rowMajor_val_one, Shape.rowMajor_val_two]
  show n.val = 0 * 2048 + n.val
  omega

/-! ## The windows' blocks entry by entry -/

/-- Window 0's block at point `t`, entry `(r, i)`: the first argument at row `256 (t / 4) + r`, column `i`. -/
theorem iblk0_apply (c : Dev nD) (t : Fin cfg0.N) (r : Fin 256) (i : Fin 4096) :
    (iblk m c 0 t : Vec Ideal S256x4096 .f32) (ix2 r i) = X m c (Cert.Spec.rowOf t.val r) i := by
  have hN : t.val < 256 := Nat.lt_of_lt_of_eq t.isLt N_0
  unfold iblk
  rw [View.read_apply]
  show V m c main_arg0 _ = _
  rw [V_main_arg0]
  unfold X
  congr 1
  funext a
  apply Fin.ext
  match a with
  | ⟨0, _⟩ =>
    show win0_0.index t 0 * 256 + 1 * r.val = 256 * ((t.val / 4) % 64) + r.val
    rw [(idx0 t).1]; omega
  | ⟨1, _⟩ =>
    show win0_0.index t 1 * 4096 + 1 * i.val = i.val
    rw [(idx0 t).2]; omega

/-- Window 1's block at point `t`, entry `(l, i)`: the average of the four rows of group `512 (t % 4) + l` of the second
    argument, at column `i`. -/
theorem iblk1_apply (c : Dev nD) (t : Fin cfg0.N) (l : Fin 512) (i : Fin 4096) :
    (iblk m c 1 t : Vec Ideal S512x4096 .f32) (ix2 l i) = Cert.Spec.pooledW (W m c) (Cert.Spec.col t.val l) i := by
  unfold iblk
  rw [View.read_apply]
  show V m c main_v3 _ = _
  rw [V_main_v3]
  refine (congrArg (hostW _) (?_ : _ = ix2 (Cert.Spec.col t.val l) i)).trans ?_
  · funext a
    apply Fin.ext
    match a with
    | ⟨0, _⟩ =>
      show win0_1.index t 0 * 512 + 1 * l.val = 512 * (t.val % 4) + l.val
      rw [(idx1 t).1]; omega
    | ⟨1, _⟩ =>
      show win0_1.index t 1 * 4096 + 1 * i.val = i.val
      rw [(idx1 t).2]; omega
  · rw [hostW_apply]
    rfl

/-- Window 2's block at point `t`, entry `(0, l)`: the average of the four entries of group `512 (t % 4) + l` of the
    third argument. -/
theorem iblk2_apply (c : Dev nD) (t : Fin cfg0.N) (l : Fin 512) :
    (iblk m c 2 t : Vec Ideal S1x512 .f32) (ix2 0 l) = Cert.Spec.pooledB (Bv m c) (Cert.Spec.col t.val l) := by
  unfold iblk
  rw [View.read_apply]
  show V m c main_v8 _ = _
  rw [V_main_v8]
  refine (congrArg (hostB _) (?_ : _ = ix2 (0 : Fin 1) (Cert.Spec.col t.val l))).trans ?_
  · funext a
    apply Fin.ext
    match a with
    | ⟨0, _⟩ =>
      show win0_2.index t 0 * 1 + 1 * 0 = 0
      rw [(idx2 t).1]
    | ⟨1, _⟩ =>
      show win0_2.index t 1 * 512 + 1 * l.val = 512 * (t.val % 4) + l.val
      rw [(idx2 t).2]; omega
  · rw [hostB_apply]
    rfl

end Cert.KernelIdeal.Blocks

end
-- ==== Proof.KInduct.lean ====
/-
  The running maximum, position by position.

  The grid has 256 positions; position `t` works on row block `t / 4` (256 rows) and column block `t mod 4` (512
  columns). One run of the body replaces the scratch, row by row, by the larger of what it held and the maximum of
  that row's activations over the position's 512 columns (`step`: the body's arithmetic term read at an index, its
  three input blocks read off the arguments). At the first column block the incoming scratch is the fresh `-∞`
  block. So after position `n` the scratch holds, at row `r`, the specification's running maximum `run` of that
  row's activations at step `n mod 4` (`scratch_eq`, by induction on the position), and at a position of the last
  column block the output block holds the same values (`out_eq`).
-/
import proofs.«116052_j3556232922346_1_alg».proof.Proof.Gen.KernelIdeal.Frame
import proofs.«116052_j3556232922346_1_alg».proof.Proof.Spec
import proofs.«116052_j3556232922346_1_alg».proof.Proof.KArgs
import proofs.«116052_j3556232922346_1_alg».proof.Proof.KPieces
import proofs.«116052_j3556232922346_1_alg».proof.Proof.KPayload
import proofs.«116052_j3556232922346_1_alg».proof.Proof.KBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open scoped BigOperators

namespace Cert.KernelIdeal.Induct

open Cert.KernelIdeal Cert.KernelIdeal.Gen Cert.KernelIdeal.Args Cert.KernelIdeal.Pieces Cert.KernelIdeal.Payload Cert.KernelIdeal.Blocks

variable (m : (ℓ : Loc nD τ sig) → Buf (Elt Ideal) ℓ)

/-- The three input blocks of position `t`, at their literal shapes. -/
abbrev xb0 (c : Dev nD) (t : Fin cfg0.N) : Vec Ideal S256x4096 .f32 := iblk m c 0 t
abbrev xb1 (c : Dev nD) (t : Fin cfg0.N) : Vec Ideal S512x4096 .f32 := iblk m c 1 t
abbrev xb2 (c : Dev nD) (t : Fin cfg0.N) : Vec Ideal S1x512 .f32 := iblk m c 2 t

/-- The activations of row `r` of the row block of position `t`, as a function of the column. -/
def g (c : Dev nD) (t : ℕ) (r : Fin 256) (k : Fin 2048) : EReal :=
  Cert.Spec.act (Cert.Spec.preK (X m c) (W m c) (Bv m c) (Cert.Spec.rowOf t r) k)

/-- One lane of the body's term: the activation at row `r` of the position's row block and column `l` of its column
    block, the blocks read off the arguments. -/
theorem lane_eq (c : Dev nD) (t : Fin cfg0.N) (r : Fin 256) (l : Fin 512) :
    Cert.Spec.act ((∑ i : Fin 4096, xb0 m c t (ix2 r i) * xb1 m c t (ix2 l i)) + xb2 m c t (ix2 0 l))
      = g m c t.val r (Cert.Spec.col t.val l) := by
  unfold g Cert.Spec.preK
  rw [show xb2 m c t (ix2 0 l) = _ from iblk2_apply m c t l]
  rw [Finset.sum_congr rfl (fun i _ => by
    rw [show xb0 m c t (ix2 r i) = _ from iblk0_apply m c t r i, show xb1 m c t (ix2 l i) = _ from iblk1_apply m c t l i])]

/-- ONE STEP: the body's term at position `t`, from an incoming scratch `acc`, is at row `r` the incoming value against
    the maximum of row `r`'s activations over the position's block of columns. -/
theorem step (c : Dev nD) (t : Fin cfg0.N) (acc : Vec Ideal S256x1 .f32) (r : Fin 256) :
    k0_pay2 (F := Ideal) (xb0 m c t) (xb1 m c t) (xb2 m c t) acc (ix2 r 0)
      = max (acc (ix2 r 0)) (Cert.Spec.blockMax (g m c t.val r) t.val) := by
  rw [pay2_apply (xb0 m c t) (xb1 m c t) (xb2 m c t) acc r]
  unfold Cert.Spec.blockMax
  rw [funext (lane_eq m c t r)]

/-- The block maximum depends on the position only through its column block. -/
theorem blockMax_mod (f : Fin 2048 → EReal) (j : ℕ) : Cert.Spec.blockMax f (j % 4) = Cert.Spec.blockMax f j := by
  unfold Cert.Spec.blockMax Cert.Spec.col
  simp only [Nat.mod_mod]

/-- Within a row block the rows do not change from one position to the next. -/
theorem g_succ (c : Dev nD) (k : ℕ) (hk : (k + 1) % 4 ≠ 0) (r : Fin 256) : g m c k r = g m c (k + 1) r := by
  unfold g Cert.Spec.rowOf
  have : k / 4 = (k + 1) / 4 := by omega
  simp only [this]

/-- THE INVARIANT: after position `n` the scratch holds, at row `r`, the running maximum of that row's activations over
    the column blocks met so far in the position's row block. By induction on the position. -/
theorem scratch_eq (c : Dev nD) : ∀ (n : ℕ) (h : n < cfg0.N) (r : Fin 256),
    ((outsAt0 m c n h).2 : Vec Ideal S256x1 .f32) (ix2 r 0) = Cert.Spec.run (g m c n r) (n % 4)
  | 0, h, r => by
    show ((outsAt0 m c (⟨0, h⟩ : Fin cfg0.N).val (⟨0, h⟩ : Fin cfg0.N).isLt).2 : Vec Ideal S256x1 .f32) (ix2 r 0) = _
    rw [outsAt0_A m c ⟨0, h⟩ rfl (by show ¬(0 % 4 = 3); decide)]
    dsimp only
    rw [sout_A]
    refine (step m c ⟨0, h⟩ _ r).trans ?_
    rw [pay1_apply]
    rfl
  | k + 1, h, r => by
    have hN : cfg0.N = 256 := N_0
    have ih := scratch_eq c k (Nat.lt_of_succ_lt h) r
    show ((outsAt0 m c (⟨k + 1, h⟩ : Fin cfg0.N).val (⟨k + 1, h⟩ : Fin cfg0.N).isLt).2 : Vec Ideal S256x1 .f32) (ix2 r 0) = _
    by_cases h0 : (k + 1) % 4 = 0
    · have h1 : ¬(k + 1) % 4 = 3 := by omega
      rw [outsAt0_A m c ⟨k + 1, h⟩ h0 h1]
      dsimp only
      rw [sout_A]
      refine (step m c ⟨k + 1, h⟩ _ r).trans ?_
      rw [pay1_apply, h0]
      show _ = max Cert.Spec.negInf (Cert.Spec.blockMax (g m c (k + 1) r) 0)
      rw [← blockMax_mod _ (k + 1), h0]
    · have hj : (k + 1) % 4 = k % 4 + 1 := by omega
      have hstep : max (((outsAt0 m c k (Nat.lt_of_succ_lt h)).2 : Vec Ideal S256x1 .f32) (ix2 r 0)) (Cert.Spec.blockMax (g m c (k + 1) r) (k + 1))
          = Cert.Spec.run (g m c (k + 1) r) ((k + 1) % 4) := by
        rw [ih, g_succ m c k h0 r, hj]
        show _ = max (Cert.Spec.run (g m c (k + 1) r) (k % 4)) (Cert.Spec.blockMax (g m c (k + 1) r) (k % 4 + 1))
        rw [← hj, blockMax_mod]
      by_cases h1 : (k + 1) % 4 = 3
      · rw [outsAt0_C m c ⟨k + 1, h⟩ h0 h1]
        dsimp only
        rw [sout_C]
        exact (step m c ⟨k + 1, h⟩ _ r).trans hstep
      · rw [outsAt0_B m c ⟨k + 1, h⟩ h0 h1]
        dsimp only
        rw [sout_B]
        exact (step m c ⟨k + 1, h⟩ _ r).trans hstep

/-- At a position of the last column block the output block is the scratch as just stored. -/
theorem out_eq (c : Dev nD) (n : ℕ) (h : n < cfg0.N) (h3 : n % 4 = 3) (r : Fin 256) :
    ((outsAt0 m c n h).1 : Vec Ideal S256x1 .f32) (ix2 r 0) = Cert.Spec.run (g m c n r) 3 := by
  have h0 : ¬n % 4 = 0 := by omega
  have e := scratch_eq m c n h r
  rw [h3] at e
  refine Eq.trans ?_ e
  show ((outsAt0 m c (⟨n, h⟩ : Fin cfg0.N).val (⟨n, h⟩ : Fin cfg0.N).isLt).1 : Vec Ideal S256x1 .f32) (ix2 r 0)
    = ((outsAt0 m c (⟨n, h⟩ : Fin cfg0.N).val (⟨n, h⟩ : Fin cfg0.N).isLt).2 : Vec Ideal S256x1 .f32) (ix2 r 0)
  rw [outsAt0_C m c ⟨n, h⟩ h0 h3]
  dsimp only
  rw [out_C, sout_C]

end Cert.KernelIdeal.Induct

end
-- ==== Proof.KFinal.lean ====
/-
  From the positions to the program's result.

  The output window is written back only at the positions of the last column block (`t mod 4 = 3`), and what is
  written there is, row by row, the running maximum after four blocks: the block of `Gout` at the position's 256
  rows (`flushed_eq`). Those 64 write-backs tile the 16384 × 1 result column (`mem_blk`, `final`: row `b` lies in
  the block of position `4 (b / 256) + 3`), so the column ends at `Gout`. The one host operation after the region
  flattens the column to a vector (`tail_eq`), and the program's run ends with that vector as its result and its
  three arguments unchanged (`run`).
-/
import proofs.«116052_j3556232922346_1_alg».proof.Proof.KInduct
import proofs.«116052_j3556232922346_1_alg».proof.Proof.SpecLaws
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KernelIdeal.Args Cert.KernelIdeal.Induct

variable (m : (ℓ : Loc nD τ sig) → Buf (Elt Ideal) ℓ) (ρ : Dev nD → PrngReg)

/-- The region's result array, one column of 16384 rows: row `b` holds the kernel's running maximum after its
    fourth column block. -/
def Gout (c : Dev nD) : S16384x1.Idx → EReal := fun i => Cert.Spec.outK (X m c) (W m c) (Bv m c) (i 0)

/-- The output window's block index at position `t`: row block `t / 4`, the one column block. -/
theorem idx3 : ∀ t : Fin cfg0.N, win0_3.index t (0 : Fin 2) = t.val / 4 ∧ win0_3.index t (1 : Fin 2) = 0 :=
  (by decide +kernel : ∀ t : Fin grid0.N, _)

/-- WHAT A WRITE-BACK WRITES: at a position of the last column block, the block of `Gout` at the position's rows. -/
theorem flushed_eq (c : Dev nD) (t : Fin cfg0.N) (hf : (cfg0.win 3).flush t = true) :
    (dats m 0 c).flushed 3 t = ((cfg0.win 3).blk t).view.read (Elt Ideal) (Gout m c) := by
  have h3 : t.val % 4 = 3 := (flush0_3 t).mp hf
  have hN : t.val < 256 := lt_of_lt_of_eq t.isLt (show cfg0.N = 256 from N_0)
  show (cfg0.win 3).cut (grid0.coords t) ((dats m 0 c).after 3 t) = _
  rw [after0_3]
  funext j
  obtain ⟨r, q, rfl⟩ : ∃ (r : Fin 256) (q : Fin 1), j = ix2 r q := ⟨j 0, j 1, eq_ix2 j⟩
  obtain rfl : q = 0 := Subsingleton.elim _ _
  show ((outsAt0 m c t.val t.isLt).1 : Vec Ideal S256x1 .f32) (ix2 r 0) = Gout m c (((cfg0.win 3).blk t).view.emb (ix2 r 0))
  rw [out_eq m c t.val t.isLt h3 r]
  have hrow : (((cfg0.win 3).blk t).view.emb (ix2 r 0)) 0 = Cert.Spec.rowOf t.val r := by
    apply Fin.ext
    show win0_3.index t (0 : Fin 2) * 256 + 1 * r.val = 256 * ((t.val / 4) % 64) + r.val
    rw [(idx3 t).1]; omega
  unfold Gout Cert.Spec.outK
  rw [hrow]
  rfl

/-- An index of the column is in position `t`'s block iff each coordinate is in the block's range on its axis. -/
theorem mem_blk (t : Fin cfg0.N) (i : S16384x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v9).slice (win0_3.rect t)).set ↔ _
  rw [View.set_slice_whole, Rect.mem_set_unit]
  exact Iff.rfl

/-- The write-backs tile the column: row `b` is written at the last position of row block `b / 256`. So the result
    array ends at `Gout`. -/
theorem final (c : Dev nD) : (dats m 0 c).arrAt 3 cfg0.N = Gout m c :=
  (dats m 0 c).arrAt_eq_of_cover 3 (Gout m c) (flushed_eq m c) fun i => by
    have hi0 : (i 0).val < 16384 := (i 0).isLt
    have hi1 : (i 1).val < 1 := (i 1).isLt
    have hN : cfg0.N = 256 := N_0
    have hlt : 4 * ((i 0).val / 256) + 3 < cfg0.N := by omega
    refine ⟨⟨4 * ((i 0).val / 256) + 3, hlt⟩, (flush0_3 _).mpr (by show (4 * ((i 0).val / 256) + 3) % 4 = 3; omega), ?_⟩
    rw [mem_blk]
    obtain ⟨e0, e1⟩ := idx3 ⟨4 * ((i 0).val / 256) + 3, hlt⟩
    intro a
    match a with
    | ⟨0, _⟩ =>
      show win0_3.index ⟨4 * ((i 0).val / 256) + 3, hlt⟩ (0 : Fin 2) * 256 ≤ (i 0).val ∧ (i 0).val < win0_3.index ⟨4 * ((i 0).val / 256) + 3, hlt⟩ (0 : Fin 2) * 256 + 256
      rw [e0]; dsimp only; omega
    | ⟨1, _⟩ =>
      show win0_3.index ⟨4 * ((i 0).val / 256) + 3, hlt⟩ (1 : Fin 2) * 1 ≤ (i 1).val ∧ (i 1).val < win0_3.index ⟨4 * ((i 0).val / 256) + 3, hlt⟩ (1 : Fin 2) * 1 + 1
      rw [e1]; omega

/-- The host operation after the region flattens the column: the program's result, row by row. -/
theorem tail_eq (c : Dev nD) :
    Pipeline.afterTail₀ cfgs (dats m) 0 (V0 m) [hostOps1] c main_v10
      = (fun j : S16384.Idx => Cert.Spec.outK (X m c) (W m c) (Bv m c) (j 0)) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.tc.devRef main_v9) = Gout m c :=
    (Pipeline.withArrays_arr spec0 launch0.win.arr_inj c _ _ 3).trans (final m c)
  rw [e]
  funext j
  show shapeCast S16384 (Gout m c) shapeCasts_S16384x1_S16384 j = _
  refine (shapeCast_apply (Gout m c) shapeCasts_S16384x1_S16384 j (ix2 (j 0) 0) ?_).trans rfl
  rw [Shape.rowMajor_val_two, Shape.rowMajor_val_one]
  show (j 0).val * 1 + 0 = (j 0).val
  omega

/-- THE RUN, READ: every weakly fair execution of the program ends with its result at the kernel's running maxima,
    row by row, and its three arguments unchanged. -/
theorem run : θ_run defs (onTc (τ := τ) (main (F := Ideal))) ⟨m, fun _ => 0, ρ⟩ fun r => ∀ c : Dev nD,
      r.2.mem ((c.tc : Thread nD τ).loc main_v10) = (fun j : S16384.Idx => Cert.Spec.outK (X m c) (W m c) (Bv m c) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v10 (Pipeline.mem_restRefs_of main_v10 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Final

end
-- ==== Proof.lean ====
/-
  The certificate: a dense layer `y = x wᵀ + b` followed by an average over groups of four adjacent output
  features, the tanh form of GELU scaled by two, and a row maximum — computed by a kernel that pools the weight
  rows and the bias entries FIRST and then runs one matrix product per 256 × 512 tile with a running row maximum,
  against the plain reference that pools the product afterwards.

  Over the extended reals, with every input entry a real number (the precondition), the two agree entry by entry:
  averaging is linear, so the product with the pooled weights plus the pooled bias is the pooled product
  (`Cert.Spec.pre_eq`), and a maximum taken in four blocks of columns is the maximum over all columns
  (`Cert.Spec.run_three`). The kernel's result is read off its run (the body's stores, position by position:
  Proof/KPieces, Proof/KPayload, Proof/KBlocks, Proof/KInduct, Proof/KFinal), the reference's off its straight-line
  run (Proof/RefValue), the inputs' realness off the precondition (Proof/Finite), and the two are joined below.
  The three frame claims are the programs' runs with the results dropped; the idealization rewrote nothing, so
  `preserves` is trivial.
-/
import proofs.«116052_j3556232922346_1_alg».proof.Defs
import proofs.«116052_j3556232922346_1_alg».proof.Proof.Gen.Kernel
import proofs.«116052_j3556232922346_1_alg».proof.Proof.Gen.Kernel.Skeleton
import proofs.«116052_j3556232922346_1_alg».proof.Proof.Gen.Kernel.Launch
import proofs.«116052_j3556232922346_1_alg».proof.Proof.Gen.Kernel.Points
import proofs.«116052_j3556232922346_1_alg».proof.Proof.Gen.Kernel.Frame
import proofs.«116052_j3556232922346_1_alg».proof.Proof.Gen.KernelIdeal
import proofs.«116052_j3556232922346_1_alg».proof.Proof.Gen.KernelIdeal.Skeleton
import proofs.«116052_j3556232922346_1_alg».proof.Proof.Gen.KernelIdeal.Launch
import proofs.«116052_j3556232922346_1_alg».proof.Proof.Gen.KernelIdeal.Points
import proofs.«116052_j3556232922346_1_alg».proof.Proof.Gen.KernelIdeal.Frame
import proofs.«116052_j3556232922346_1_alg».proof.Proof.Gen.ReferenceIdeal
import proofs.«116052_j3556232922346_1_alg».proof.Proof.Gen.Pre_finite_inputs
import proofs.«116052_j3556232922346_1_alg».proof.Proof.Gen.ReferenceIdeal.Run
import proofs.«116052_j3556232922346_1_alg».proof.Proof.Gen.ReferenceIdeal.Read
import proofs.«116052_j3556232922346_1_alg».proof.Proof.Spec
import proofs.«116052_j3556232922346_1_alg».proof.Proof.SpecLaws
import proofs.«116052_j3556232922346_1_alg».proof.Proof.Finite
import proofs.«116052_j3556232922346_1_alg».proof.Proof.RefValue
import proofs.«116052_j3556232922346_1_alg».proof.Proof.KArgs
import proofs.«116052_j3556232922346_1_alg».proof.Proof.KFinal
import Idealize.ShloMosaic.Adequacy
import Idealize.ShloMosaic.Init

noncomputable section

namespace Cert.Proof

open Idealize.ShloMosaic Idealize.SL.Sem Idealize.ShloMosaic.ValueIdx

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments, all of whose entries are real, the kernel ends at its running
    maxima and the reference at its row maxima of the pooled product: the same numbers, row by row. -/
theorem algebraic : Cert.algebraic_KernelIdeal_ReferenceIdeal := by
  intro m ρ m' ρ' hpre hagree
  refine ⟨fun c => (fun j : Cert.KernelIdeal.S16384.Idx =>
      Cert.Spec.outK (Cert.KernelIdeal.Args.X m c) (Cert.KernelIdeal.Args.W m c) (Cert.KernelIdeal.Args.Bv m c) (j 0)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq]
  funext j
  rw [Cert.ReferenceIdeal.RefValue.ref_eq_spec, (hagree c).1, (hagree c).2.1, (hagree c).2.2]
  obtain ⟨hX, hW, hB⟩ := Cert.Finite.reals_of_pre _ _ _ (hpre c)
  exact (Cert.Spec.outK_eq_outR (Cert.KernelIdeal.Args.X m c) (Cert.KernelIdeal.Args.W m c) (Cert.KernelIdeal.Args.Bv m c)
    (fun b i => hX (ix2 b i)) (fun r i => hW (ix2 r i)) (fun r => hB (ix1 r)) (j 0)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
